-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x384 : Shape := ⟨2, ![96, 384]⟩
abbrev S384 : Shape := ⟨1, ![384]⟩
abbrev S384x40 : Shape := ⟨2, ![384, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x384 : S_.BroadcastsInDim S96x384 (![] : Fin 0 → Fin S96x384.rank)
  reducesTo_S96x384_S_d0_1 : S96x384.ReducesTo [0, 1] S_
  bcast_S_S384 : S_.BroadcastsInDim S384 (![] : Fin 0 → Fin S384.rank)
  reducesTo_S384_S_d0 : S384.ReducesTo [0] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S384x40 .f32) (main_arg9 : FVec F S40 .f32) (main_v33 : IVec S_ 1) : IVec S_ 1 :=
  let main_v34 : FVec F S384x40 .f32 := Host.absf main_arg8
  let main_cst_12 : FVec F S_ .f32 := constant S_ .f32 0x7F800000#32
  let main_v35 : FVec F S384x40 .f32 := broadcastInDim S384x40 ![] bcast_S_S384x40 main_cst_12
  let main_v36 : IVec S384x40 1 := cmpf .olt main_v34 main_v35
  let main_c_13 : IVec S_ 1 := constantI S_ 1 1#1
  let main_v37 : IVec S_ 1 := (fun x v => Host.reduce IntOp.andi x v reducesTo_S384x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S96 .f32) (main_arg6 : FVec F S96x384 .f32) (main_arg7 : FVec F S384 .f32) (main_arg8 : FVec F S384x40 .f32) (main_arg9 : FVec F S40 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x384 .f32 := Host.absf main_arg6
  let main_cst_8 : FVec F S_ .f32 := constant S_ .f32 0x7F800000#32
  let main_v25 : FVec F S96x384 .f32 := broadcastInDim S96x384 ![] bcast_S_S96x384 main_cst_8
  let main_v26 : IVec S96x384 1 := cmpf .olt main_v24 main_v25
  let main_c_9 : IVec S_ 1 := constantI S_ 1 1#1
  let main_v27 : IVec S_ 1 := (fun x v => Host.reduce IntOp.andi x v reducesTo_S96x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x96 .f32) (main_arg3 : FVec F S96 .f32) (main_arg4 : FVec F S96x96 .f32) (main_arg5 : FVec F S96 .f32) (main_arg6 : FVec F S96x384 .f32) (main_arg7 : FVec F S384 .f32) (main_arg8 : FVec F S384x40 .f32) (main_arg9 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg2
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x384 : Shape := ⟨2, ![96, 384]⟩
abbrev S384 : Shape := ⟨1, ![384]⟩
abbrev S384x40 : Shape := ⟨2, ![384, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S2000x512 : Shape := ⟨2, ![2000, 512]⟩
abbrev S2000x96 : Shape := ⟨2, ![2000, 96]⟩
abbrev S800000x96 : Shape := ⟨2, ![800000, 96]⟩
abbrev S50000x1 : Shape := ⟨2, ![50000, 1]⟩
abbrev S1x96 : Shape := ⟨2, ![1, 96]⟩
abbrev S1x384 : Shape := ⟨2, ![1, 384]⟩
abbrev S1x40 : Shape := ⟨2, ![1, 40]⟩
abbrev S50000x40 : Shape := ⟨2, ![50000, 40]⟩
abbrev S2000x40 : Shape := ⟨2, ![2000, 40]⟩
abbrev S2000x384 : Shape := ⟨2, ![2000, 384]⟩

abbrev nBuf : Space → Nat
  | .hbm => 111
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x384, .f32⟩
  | .hbm, ⟨7, _⟩ => ⟨S384, .f32⟩
  | .hbm, ⟨8, _⟩ => ⟨S384x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S50000, .f32⟩
  | .hbm, ⟨44, _⟩ => ⟨S50000x96, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x96, .f32⟩
  | .hbm, ⟨54, _⟩ => ⟨S800000x1, .f32⟩
  | .hbm, ⟨55, _⟩ => ⟨S800000x96, .f32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S50000x1, .f32⟩
  | .hbm, ⟨62, _⟩ => ⟨S50000x96, .f32⟩
  | .hbm, ⟨63, _⟩ => ⟨S50000x96, .f32⟩
  | .hbm, ⟨64, _⟩ => ⟨S50000x96, .f32⟩
  | .hbm, ⟨65, _⟩ => ⟨S1x96, .f32⟩
  | .hbm, ⟨66, _⟩ => ⟨S50000x96, .f32⟩
  | .hbm, ⟨67, _⟩ => ⟨S50000x96, .f32⟩
  | .hbm, ⟨68, _⟩ => ⟨S50000x96, .f32⟩
  | .hbm, ⟨69, _⟩ => ⟨S50000x96, .f32⟩
  | .hbm, ⟨70, _⟩ => ⟨S_, .f32⟩
  | .hbm, ⟨71, _⟩ => ⟨S50000x96, .f32⟩
  | .hbm, ⟨72, _⟩ => ⟨S50000x96, .f32⟩
  | .hbm, ⟨73, _⟩ => ⟨S_, .f32⟩
  | .hbm, ⟨74, _⟩ => ⟨S50000x96, .f32⟩
  | .hbm, ⟨75, _⟩ => ⟨S50000x96, .f32⟩
  | .hbm, ⟨76, _⟩ => ⟨S50000x96, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x96, .f32⟩
  | .hbm, ⟨86, _⟩ => ⟨S800000x1, .f32⟩
  | .hbm, ⟨87, _⟩ => ⟨S800000x96, .f32⟩
  | .hbm, ⟨88, _⟩ => ⟨S800000x96, .f32⟩
  | .hbm, ⟨89, _⟩ => ⟨S_, .f32⟩
  | .hbm, ⟨90, _⟩ => ⟨S50000x96, .f32⟩
  | .hbm, ⟨91, _⟩ => ⟨S800000x1, .i32⟩
  | .hbm, ⟨92, _⟩ => ⟨S50000x96, .f32⟩
  | .hbm, ⟨93, _⟩ => ⟨S50000x1, .f32⟩
  | .hbm, ⟨94, _⟩ => ⟨S50000x96, .f32⟩
  | .hbm, ⟨95, _⟩ => ⟨S50000x96, .f32⟩
  | .hbm, ⟨96, _⟩ => ⟨S50000x96, .f32⟩
  | .hbm, ⟨97, _⟩ => ⟨S1x96, .f32⟩
  | .hbm, ⟨98, _⟩ => ⟨S50000x96, .f32⟩
  | .hbm, ⟨99, _⟩ => ⟨S50000x96, .f32⟩
  | .hbm, ⟨100, _⟩ => ⟨S50000x96, .f32⟩
  | .hbm, ⟨101, _⟩ => ⟨S50000x96, .f32⟩
  | .hbm, ⟨102, _⟩ => ⟨S_, .f32⟩
  | .hbm, ⟨103, _⟩ => ⟨S50000x96, .f32⟩
  | .hbm, ⟨104, _⟩ => ⟨S50000x96, .f32⟩
  | .hbm, ⟨105, _⟩ => ⟨S_, .f32⟩
  | .hbm, ⟨106, _⟩ => ⟨S50000x96, .f32⟩
  | .hbm, ⟨107, _⟩ => ⟨S50000x96, .f32⟩
  | .hbm, ⟨108, _⟩ => ⟨S1x384, .f32⟩
  | .hbm, ⟨109, _⟩ => ⟨S1x40, .f32⟩
  | .hbm, ⟨110, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S96x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S96x384, .f32⟩
  | .local _ .vmem, ⟨13, _⟩ => ⟨S1x384, .f32⟩
  | .local _ .vmem, ⟨14, _⟩ => ⟨S384x40, .f32⟩
  | .local _ .vmem, ⟨15, _⟩ => ⟨S1x40, .f32⟩
  | .local _ .vmem, ⟨16, _⟩ => ⟨S2000x40, .f32⟩
  | .local _ .vmem, ⟨17, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S2000x96_S2000x96_0_0 : ∀ a, (![0, 0] : Fin 2 → Nat) a + S2000x96.size a ≤ S2000x96.size a
  h_S2000x96 : 0 < S2000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  shapeCasts_S384_S1x384 : S384.ShapeCasts S1x384
  shapeCasts_S40_S1x40 : S40.ShapeCasts S1x40
  inb_S96x384_S96x384_0_0 : ∀ a, (![0, 0] : Fin 2 → Nat) a + S96x384.size a ≤ S96x384.size a
  h_S96x384 : 0 < S96x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S384x40_S384x40_0_0 : ∀ a, (![0, 0] : Fin 2 → Nat) a + S384x40.size a ≤ S384x40.size a
  h_S384x40 : 0 < S384x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x512_S512x96_S2000x96_1_0_0_1_n_n_wf : DotDims.WF S2000x512 S512x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  dot_S2000x96_S96x384_S2000x384_1_0_0_1_n_n_wf : DotDims.WF S2000x96 S96x384 S2000x384 [1] [0] [0] [1] [] []
  dot_S2000x384_S384x40_S2000x40_1_0_0_1_n_n_wf : DotDims.WF S2000x384 S384x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x384.size a ≤ S96x384.size a
  hwx2_1 : ∀ i : grid2.Coords, EltTy.bits .f32 = 32 ∨ (Rect.block (s := S96x384) S96x384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x384.size a ≤ S1x384.size a
  hwx2_2 : ∀ i : grid2.Coords, EltTy.bits .f32 = 32 ∨ (Rect.block (s := S1x384) S1x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x40.size a ≤ S384x40.size a
  hwx2_3 : ∀ i : grid2.Coords, EltTy.bits .f32 = 32 ∨ (Rect.block (s := S384x40) S384x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x512_S512x96_S2000x96_1_0_0_1_n_n : DotDims S2000x512 S512x96 S2000x96 where
  lhsContracting := [1]
  rhsContracting := [0]
  lhsNonContracting := [0]
  rhsNonContracting := [1]
  lhsBatch := []
  rhsBatch := []
  wf := dot_S2000x512_S512x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x384_S2000x384_1_0_0_1_n_n : DotDims S2000x96 S96x384 S2000x384 where
  lhsContracting := [1]
  rhsContracting := [0]
  lhsNonContracting := [0]
  rhsNonContracting := [1]
  lhsBatch := []
  rhsBatch := []
  wf := dot_S2000x96_S96x384_S2000x384_1_0_0_1_n_n_wf
def dot_S2000x384_S384x40_S2000x40_1_0_0_1_n_n : DotDims S2000x384 S384x40 S2000x40 where
  lhsContracting := [1]
  rhsContracting := [0]
  lhsNonContracting := [0]
  rhsNonContracting := [1]
  lhsBatch := []
  rhsBatch := []
  wf := dot_S2000x384_S384x40_S2000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S96x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S384x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x384 : Shape := ⟨2, ![96, 384]⟩
abbrev S384 : Shape := ⟨1, ![384]⟩
abbrev S384x40 : Shape := ⟨2, ![384, 40]⟩
abbrev S40 : Shape := ⟨1, ![40]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x384 : Shape := ⟨2, ![50000, 384]⟩
abbrev S1x384 : Shape := ⟨2, ![1, 384]⟩
abbrev S50000x40 : Shape := ⟨2, ![50000, 40]⟩
abbrev S1x40 : Shape := ⟨2, ![1, 40]⟩

abbrev nBuf : Space → Nat
  | .hbm => 149
  | .vmem => 0
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x96, .f32⟩
  | 5 => ⟨S96, .f32⟩
  | 6 => ⟨S96x384, .f32⟩
  | 7 => ⟨S384, .f32⟩
  | 8 => ⟨S384x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S50000x96, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x96, .f32⟩
  | 53 => ⟨S800000x1, .f32⟩
  | 54 => ⟨S800000x96, .f32⟩
  | 55 => ⟨S800000x96, .f32⟩
  | 56 => ⟨S_, .f32⟩
  | 57 => ⟨S50000x96, .f32⟩
  | 58 => ⟨S800000x1, .i32⟩
  | 59 => ⟨S50000x96, .f32⟩
  | 60 => ⟨S50000, .f32⟩
  | 61 => ⟨S50000x1, .f32⟩
  | 62 => ⟨S50000x96, .f32⟩
  | 63 => ⟨S50000x96, .f32⟩
  | 64 => ⟨S50000x96, .f32⟩
  | 65 => ⟨S1x96, .f32⟩
  | 66 => ⟨S50000x96, .f32⟩
  | 67 => ⟨S50000x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S_, .f32⟩
  | 74 => ⟨S50000x96, .f32⟩
  | 75 => ⟨S50000x96, .f32⟩
  | 76 => ⟨S50000x96, .f32⟩
  | 77 => ⟨S_, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x96, .f32⟩
  | 115 => ⟨S800000x1, .f32⟩
  | 116 => ⟨S800000x96, .f32⟩
  | 117 => ⟨S800000x96, .f32⟩
  | 118 => ⟨S_, .f32⟩
  | 119 => ⟨S50000x96, .f32⟩
  | 120 => ⟨S800000x1, .i32⟩
  | 121 => ⟨S50000x96, .f32⟩
  | 122 => ⟨S50000, .f32⟩
  | 123 => ⟨S50000x1, .f32⟩
  | 124 => ⟨S50000x96, .f32⟩
  | 125 => ⟨S50000x96, .f32⟩
  | 126 => ⟨S50000x96, .f32⟩
  | 127 => ⟨S1x96, .f32⟩
  | _ => ⟨S50000x512, .f32⟩

abbrev hbmTy0_1 (i : Nat) : BufTy := match i % 128 with
  | 0 => ⟨S50000x96, .f32⟩
  | 1 => ⟨S50000x96, .f32⟩
  | 2 => ⟨S50000x96, .f32⟩
  | 3 => ⟨S50000x96, .f32⟩
  | 4 => ⟨S_, .f32⟩
  | 5 => ⟨S50000x96, .f32⟩
  | 6 => ⟨S50000x96, .f32⟩
  | 7 => ⟨S_, .f32⟩
  | 8 => ⟨S50000x96, .f32⟩
  | 9 => ⟨S50000x96, .f32⟩
  | 10 => ⟨S50000x384, .f32⟩
  | 11 => ⟨S1x384, .f32⟩
  | 12 => ⟨S50000x384, .f32⟩
  | 13 => ⟨S50000x384, .f32⟩
  | 14 => ⟨S_, .f32⟩
  | 15 => ⟨S50000x384, .f32⟩
  | 16 => ⟨S50000x384, .f32⟩
  | 17 => ⟨S50000x40, .f32⟩
  | 18 => ⟨S1x40, .f32⟩
  | 19 => ⟨S50000x40, .f32⟩
  | 20 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call0_cst : Ref sig .tc := ⟨.hbm, 142, rfl⟩
abbrev main_call0_v0 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S_S50000x384 : S_.BroadcastsInDim S50000x384 (![] : Fin 0 → Fin S50000x384.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x96_S50000x96_1_0_0_1_n_n_wf : DotDims.WF S50000x512 S512x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x384_S50000x384_1_0_0_1_n_n_wf : DotDims.WF S50000x96 S96x384 S50000x384 [1] [0] [0] [1] [] []
  dot_S50000x384_S384x40_S50000x40_1_0_0_1_n_n_wf : DotDims.WF S50000x384 S384x40 S50000x40 [1] [0] [0] [1] [] []

variable [Facts₀]

def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x384_S50000x384_1_0_0_1_n_n : DotDims S50000x96 S96x384 S50000x384 where
  lhsContracting := [1]
  rhsContracting := [0]
  lhsNonContracting := [0]
  rhsNonContracting := [1]
  lhsBatch := []
  rhsBatch := []
  wf := dot_S50000x96_S96x384_S50000x384_1_0_0_1_n_n_wf
def dot_S50000x384_S384x40_S50000x40_1_0_0_1_n_n : DotDims S50000x384 S384x40 S50000x40 where
  lhsContracting := [1]
  rhsContracting := [0]
  lhsNonContracting := [0]
  rhsNonContracting := [1]
  lhsBatch := []
  rhsBatch := []
  wf := dot_S50000x384_S384x40_S50000x40_1_0_0_1_n_n_wf

class Facts : Prop extends Facts₀ where

variable [Facts]
-- ==== Proof.Model.lean ====
/-
  The graph-convolution model both programs compute, as a composition of the host operations they share.

  Nodes 0 … 49999, edges 0 … 799999 given as a 2 × 800000 table of endpoints (row 0 the sources, row 1 the
  destinations). With deg(v) = 1 + #{edges into v} and s = deg^(-1/2), one layer sends a node matrix h to
      sigmoid( Σ_{edges (u → v)} s(u) s(v) h[u]  +  s(v)² h[v]  +  b ),
  and the head sends x to  max(x · Wm1 + bm1, 0) · Wm2 + bm2.  The whole model is
      head( layer( layer(X · W1) · W2 ) ).
  The pieces below are named so that each program's value can be stated over them; nothing here is opened by the
  proof except to see that a program's operations are these.
-/
import proofs.«158188_j12584254177938_1_alg».proof.Proof.Gen.ReferenceIdeal

noncomputable section

namespace Cert.Model

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: row 0 of the endpoint table, as a vector. -/
def sources (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the endpoint table, as a vector. -/
def targets (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A node number read the way an array index is: a negative one counts from the end (v ↦ v + 50000). -/
def wrapIndex (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- s = (1 + in-degree)^(-1/2), per node: a one for every edge summed into its destination, plus one, inverse square root. -/
def invSqrtDeg (e : (⟨S2x800000, .i32⟩ : BufTy).Contents (Elt F)) : (⟨S50000, .f32⟩ : BufTy).Contents (Elt F) :=
  Host.rsqrt (addf (Host.scatterAdd scatter_S50000_S800000x1_S800000_n_0_0_1
      (broadcastInDim S50000 ![] bcast_S_S50000 (constant S_ .f32 0x00000000#32))
      (broadcastInDim S800000x1 ![0] bcast_S800000_S800000x1_0 (targets e))
      (broadcastInDim S800000 ![] bcast_S_S800000 (constant S_ .f32 0x3F800000#32)))
    (broadcastInDim S50000 ![] bcast_S_S50000 (constant S_ .f32 0x3F800000#32)))

/-- The weight of an edge (u → v): s(u) · s(v). -/
def edgeWeight (e : (⟨S2x800000, .i32⟩ : BufTy).Contents (Elt F)) : (⟨S800000, .f32⟩ : BufTy).Contents (Elt F) :=
  mulf (Host.gather gather_S50000_S800000x1_S800000_n_0_n_n_0_1_1 (invSqrtDeg e)
      (broadcastInDim S800000x1 ![0] bcast_S800000_S800000x1_0 (wrapIndex (sources e))))
    (Host.gather gather_S50000_S800000x1_S800000_n_0_n_n_0_1_1 (invSqrtDeg e)
      (broadcastInDim S800000x1 ![0] bcast_S800000_S800000x1_0 (wrapIndex (targets e))))

/-- The weight of a node's own row: s(v)². -/
def selfWeight (e : (⟨S2x800000, .i32⟩ : BufTy).Contents (Elt F)) : (⟨S50000, .f32⟩ : BufTy).Contents (Elt F) :=
  mulf (invSqrtDeg e) (invSqrtDeg e)

/-- One aggregation: every edge's weighted source row summed into its destination row, plus the weighted own row,
    plus the bias along every row. Stated over the weights and endpoints as separate arguments. -/
def aggregate (h : (⟨S50000x96, .f32⟩ : BufTy).Contents (Elt F)) (w : (⟨S800000, .f32⟩ : BufTy).Contents (Elt F))
    (sw : (⟨S50000, .f32⟩ : BufTy).Contents (Elt F)) (src dst : (⟨S800000, .i32⟩ : BufTy).Contents (Elt F))
    (b : (⟨S96, .f32⟩ : BufTy).Contents (Elt F)) : (⟨S50000x96, .f32⟩ : BufTy).Contents (Elt F) :=
  addf (addf (Host.scatterAdd scatter_S50000x96_S800000x1_S800000x96_1_0_0_1
        (broadcastInDim S50000x96 ![] bcast_S_S50000x96 (constant S_ .f32 0x00000000#32))
        (broadcastInDim S800000x1 ![0] bcast_S800000_S800000x1_0 dst)
        (mulf (Host.gather gather_S50000x96_S800000x1_S800000x96_1_0_n_n_0_1_196 h
            (broadcastInDim S800000x1 ![0] bcast_S800000_S800000x1_0 (wrapIndex src)))
          (broadcastInDim S800000x96 ![0, 1] bcast_S800000x1_S800000x96_0_1 (broadcastInDim S800000x1 ![0] bcast_S800000_S800000x1_0 w))))
      (mulf h (broadcastInDim S50000x96 ![0, 1] bcast_S50000x1_S50000x96_0_1 (broadcastInDim S50000x1 ![0] bcast_S50000_S50000x1_0 sw))))
    (broadcastInDim S50000x96 ![0, 1] bcast_S1x96_S50000x96_0_1 (broadcastInDim S1x96 ![1] bcast_S96_S1x96_1 b))

/-- The logistic function 1 / (1 + exp (−x)), entry by entry. -/
def sigmoid (x : (⟨S50000x96, .f32⟩ : BufTy).Contents (Elt F)) : (⟨S50000x96, .f32⟩ : BufTy).Contents (Elt F) :=
  Host.divf (broadcastInDim S50000x96 ![] bcast_S_S50000x96 (constant S_ .f32 0x3F800000#32))
    (addf (broadcastInDim S50000x96 ![] bcast_S_S50000x96 (constant S_ .f32 0x3F800000#32)) (Host.exp (Host.negf x)))

/-- One layer after its dense transform: aggregate over the graph, then the logistic function. -/
def layer (h : (⟨S50000x96, .f32⟩ : BufTy).Contents (Elt F)) (e : (⟨S2x800000, .i32⟩ : BufTy).Contents (Elt F))
    (b : (⟨S96, .f32⟩ : BufTy).Contents (Elt F)) : (⟨S50000x96, .f32⟩ : BufTy).Contents (Elt F) :=
  sigmoid (aggregate h (edgeWeight e) (selfWeight e) (sources e) (targets e) b)

/-- The two dense transforms of the layers. -/
def transform1 (x : (⟨S50000x512, .f32⟩ : BufTy).Contents (Elt F)) (w : (⟨S512x96, .f32⟩ : BufTy).Contents (Elt F)) :
    (⟨S50000x96, .f32⟩ : BufTy).Contents (Elt F) :=
  Host.dotGeneral dot_S50000x512_S512x96_S50000x96_1_0_0_1_n_n none x w
def transform2 (x : (⟨S50000x96, .f32⟩ : BufTy).Contents (Elt F)) (w : (⟨S96x96, .f32⟩ : BufTy).Contents (Elt F)) :
    (⟨S50000x96, .f32⟩ : BufTy).Contents (Elt F) :=
  Host.dotGeneral dot_S50000x96_S96x96_S50000x96_1_0_0_1_n_n none x w

/-- The head: max(x · Wm1 + B1, 0) · Wm2 + B2, the biases given as one-row matrices laid along every row. -/
def head (x : (⟨S50000x96, .f32⟩ : BufTy).Contents (Elt F)) (wm1 : (⟨S96x384, .f32⟩ : BufTy).Contents (Elt F))
    (B1 : (⟨S1x384, .f32⟩ : BufTy).Contents (Elt F)) (wm2 : (⟨S384x40, .f32⟩ : BufTy).Contents (Elt F))
    (B2 : (⟨S1x40, .f32⟩ : BufTy).Contents (Elt F)) : (⟨S50000x40, .f32⟩ : BufTy).Contents (Elt F) :=
  addf (Host.dotGeneral dot_S50000x384_S384x40_S50000x40_1_0_0_1_n_n none
      (maximumf (addf (Host.dotGeneral dot_S50000x96_S96x384_S50000x384_1_0_0_1_n_n none x wm1)
          (broadcastInDim S50000x384 ![0, 1] bcast_S1x384_S50000x384_0_1 B1))
        (broadcastInDim S50000x384 ![] bcast_S_S50000x384 (constant S_ .f32 0x00000000#32))) wm2)
    (broadcastInDim S50000x40 ![0, 1] bcast_S1x40_S50000x40_0_1 B2)

/-- The whole model, of the ten arguments in the programs' order. -/
def model (x : (⟨S50000x512, .f32⟩ : BufTy).Contents (Elt F)) (e : (⟨S2x800000, .i32⟩ : BufTy).Contents (Elt F))
    (w1 : (⟨S512x96, .f32⟩ : BufTy).Contents (Elt F)) (b1 : (⟨S96, .f32⟩ : BufTy).Contents (Elt F))
    (w2 : (⟨S96x96, .f32⟩ : BufTy).Contents (Elt F)) (b2 : (⟨S96, .f32⟩ : BufTy).Contents (Elt F))
    (wm1 : (⟨S96x384, .f32⟩ : BufTy).Contents (Elt F)) (bm1 : (⟨S384, .f32⟩ : BufTy).Contents (Elt F))
    (wm2 : (⟨S384x40, .f32⟩ : BufTy).Contents (Elt F)) (bm2 : (⟨S40, .f32⟩ : BufTy).Contents (Elt F)) :
    (⟨S50000x40, .f32⟩ : BufTy).Contents (Elt F) :=
  head (layer (transform2 (layer (transform1 x w1) e b1) w2) e b2) wm1
    (broadcastInDim S1x384 ![1] bcast_S384_S1x384_1 bm1) wm2 (broadcastInDim S1x40 ![1] bcast_S40_S1x40_1 bm2)

end Cert.Model

end
-- ==== Proof.Region0.lean ====
/-
  Region 0: the first dense transform, block by block, is the whole product X · W1.

  The region's grid has 25 points; point t loads rows 2000 t … 2000 t + 1999 of X and all of W1, multiplies them
  (into a zero accumulator, the operands' change of format being the identity on exact values) and writes the
  2000 × 96 result back as rows 2000 t … of the output. Entry (p, q) of that block is Σ_k X[2000 t + p, k] · W1[k, q],
  which is entry (2000 t + p, q) of the whole product; the 25 blocks tile the 50000 rows, so the output array ends
  holding the whole product.
-/
import proofs.«158188_j12584254177938_1_alg».proof.Proof.Gen.KernelIdeal.Frame
import proofs.«158188_j12584254177938_1_alg».proof.Proof.Model
import Idealize.ShloMosaic.Lib.KernelVsHost
import Idealize.ShloMosaic.Lib.StackMember
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- The block's and the whole array's products are plain products of an M × K by a K × N matrix. -/
theorem dims_block : dot_S2000x512_S512x96_S2000x96_1_0_0_1_n_n = DotDims.plain 2000 512 96 := rfl
theorem dims_whole : Cert.ReferenceIdeal.dot_S50000x512_S512x96_S50000x96_1_0_0_1_n_n = DotDims.plain 50000 512 96 := rfl

/-- Entry (p, q) of what the body stores: the sum over k of the loaded blocks' entries (p, k) and (k, q). -/
theorem pay_apply (x : Vec Ideal S2000x512 .f32) (w : Vec Ideal S512x96 .f32) (p : Fin 2000) (q : Fin 96) :
    k0_pay1 (F := Ideal) x w (ix2 p q) = ∑ k : Fin 512, x (ix2 p k) * w (ix2 k q) := by
  show matmul dot_S2000x512_S512x96_S2000x96_1_0_0_1_n_n none (truncf (F := Ideal) .bf16 x bitsLt_bf16_f32) (truncf (F := Ideal) .bf16 w bitsLt_bf16_f32)
    (constant S2000x96 .f32 0x00000000#32) (ix2 p q) = _
  rw [matmul_zero_eq_dotGeneral, dims_block]
  exact StackMember.dotGeneral_plain_apply none _ _ p q

/-- Entry (P, q) of the whole product. -/
theorem transform1_apply (X : (⟨Cert.ReferenceIdeal.S50000x512, .f32⟩ : BufTy).Contents (Elt Ideal))
    (W : (⟨Cert.ReferenceIdeal.S512x96, .f32⟩ : BufTy).Contents (Elt Ideal)) (P : Fin 50000) (q : Fin 96) :
    Cert.Model.transform1 (F := Ideal) X W (ix2 P q) = ∑ k : Fin 512, X (ix2 P k) * W (ix2 k q) := by
  unfold Cert.Model.transform1
  rw [dims_whole]
  exact StackMember.dotGeneral_plain_apply none X W P q

/-- ONE BLOCK AGAINST THE WHOLE PRODUCT. If the loaded row block holds rows 2000 r … of X and the loaded weight block
    is W, entry j of what the body stores is entry i of X · W, for i the row 2000 r + j₀ and the column j₁. -/
theorem block_entry (X : (⟨Cert.ReferenceIdeal.S50000x512, .f32⟩ : BufTy).Contents (Elt Ideal))
    (W : (⟨Cert.ReferenceIdeal.S512x96, .f32⟩ : BufTy).Contents (Elt Ideal))
    (xb : Vec Ideal S2000x512 .f32) (wb : Vec Ideal S512x96 .f32) (r : Nat)
    (hx : ∀ (y : S2000x512.Idx) (k : Cert.ReferenceIdeal.S50000x512.Idx), (k 0).val = 2000 * r + (y 0).val → (k 1).val = (y 1).val → xb y = X k)
    (hw : ∀ y : S512x96.Idx, wb y = W y)
    (j : S2000x96.Idx) (i : Cert.ReferenceIdeal.S50000x96.Idx) (hi0 : (i 0).val = 2000 * r + (j 0).val) (hi1 : (i 1).val = (j 1).val) :
    k0_pay1 (F := Ideal) xb wb j = Cert.Model.transform1 (F := Ideal) X W i := by
  obtain ⟨p, q, rfl⟩ : ∃ (p : Fin 2000) (q : Fin 96), j = ix2 p q := ⟨j 0, j 1, eq_ix2 j⟩
  obtain ⟨P, q', rfl⟩ : ∃ (P : Fin 50000) (q' : Fin 96), i = ix2 P q' := ⟨i 0, i 1, eq_ix2 i⟩
  have hq : q' = q := Fin.ext hi1
  subst hq
  rw [pay_apply, transform1_apply]
  refine Finset.sum_congr rfl fun k _ => ?_
  rw [hx (ix2 p k) (ix2 P k) hi0 rfl, hw]

variable (V : (c : Dev nD) → (b : Ref sig .tc) → Buf (Elt Ideal) ((c : Thread nD τ).loc b))

/-- The printed index maps over the grid: the row blocks of X and of the output move together, one block per point,
    and W1's one block stays. -/
theorem idx_facts : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 2000 t … 2000 t + 1999 of the array the region finds. -/
theorem xblk_apply (c : Dev nD) (t : Fin cfg0.N) (y : S2000x512.Idx) (k : Cert.ReferenceIdeal.S50000x512.Idx)
    (hk0 : (k 0).val = 2000 * t.val + (y 0).val) (hk1 : (k 1).val = (y 1).val) :
    (iblk0 V c 0 t : Vec Ideal S2000x512 .f32) y = (V c main_arg0 : Cert.ReferenceIdeal.S50000x512.Idx → Elt Ideal .f32) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 512 + 1 * (y 1).val = (k 1).val; rw [e1, hk1]; omega

/-- The weight window's one block is the whole weight array. -/
theorem wblk_apply (c : Dev nD) (t : Fin cfg0.N) (y : S512x96.Idx) :
    (iblk0 V c 1 t : Vec Ideal S512x96 .f32) y = (V c main_arg2 : Cert.ReferenceIdeal.S512x96.Idx → Elt Ideal .f32) y := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 512 + 1 * (y 0).val = (y 0).val; rw [e2]; omega
  | ⟨1, _⟩ => show win0_1.index t 1 * 96 + 1 * (y 1).val = (y 1).val; rw [e3]; omega

/-- WHAT POINT t WRITES BACK is block t of the whole product of the arrays the region finds. -/
theorem flushed_eq (c : Dev nD) (t : Fin cfg0.N) :
    (dat0 V c).flushed 2 t = ((cfg0.win 2).blk t).view.read (Elt Ideal)
      (Cert.Model.transform1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x96) hz]
  obtain ⟨-, -, -, -, e4, e5⟩ := idx_facts t
  funext j
  show k0_pay1 (F := Ideal) (iblk0 V c 0 t) (iblk0 V c 1 t) j
    = Cert.Model.transform1 (F := Ideal) (V c main_arg0) (V c main_arg2) (((cfg0.win 2).blk t).view.emb j)
  refine block_entry (V c main_arg0) (V c main_arg2) (iblk0 V c 0 t) (iblk0 V c 1 t) t.val
    (fun y k h0 h1 => xblk_apply V c t y k h0 h1) (fun y => wblk_apply V c t y) j _ ?_ ?_
  · show win0_2.index t 0 * 2000 + 1 * (j 0).val = 2000 * t.val + (j 0).val
    rw [e4]; omega
  · show win0_2.index t 1 * 96 + 1 * (j 1).val = (j 1).val
    rw [e5]; omega

/-- An index of the output array is in point t's block iff each coordinate is in the block's range on its axis. -/
theorem mem_blk (t : Fin cfg0.N) (i : Cert.ReferenceIdeal.S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v27).slice (win0_2.rect t)).set ↔ _
  rw [View.set_slice_whole, Rect.mem_set_unit]
  exact Iff.rfl

/-- Every row lies in the block of the point that is its number divided by 2000. -/
theorem cover (i : Cert.ReferenceIdeal.S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 25 := N_0
  let t : Fin cfg0.N := ⟨(i 0).val / 2000, by rw [hN]; omega⟩
  obtain ⟨-, -, -, -, e4, e5⟩ := idx_facts t
  refine ⟨t, flush0_2 t, ?_⟩
  rw [mem_blk]
  intro a
  match a with
  | ⟨0, _⟩ => show win0_2.index t 0 * 2000 ≤ (i 0).val ∧ (i 0).val < win0_2.index t 0 * 2000 + 2000
              rw [e4]; show (i 0).val / 2000 * 2000 ≤ (i 0).val ∧ (i 0).val < (i 0).val / 2000 * 2000 + 2000; omega
  | ⟨1, _⟩ => show win0_2.index t 1 * 96 ≤ (i 1).val ∧ (i 1).val < win0_2.index t 1 * 96 + 96
              rw [e5]; omega

/-- THE OUTPUT ARRAY after the region: the whole product of the arrays the region finds. -/
theorem value (c : Dev nD) :
    (dat0 V c).arrAt 2 cfg0.N = Cert.Model.transform1 (F := Ideal) (V c main_arg0) (V c main_arg2) :=
  (dat0 V c).arrAt_eq_of_cover 2 _ (fun t _ => flushed_eq V c t) cover

end Cert.KernelIdeal.Region0

end
-- ==== Proof.Region1.lean ====
/-
  Region 1: the second dense transform, block by block, is the whole product H · W2.

  As in region 0 the grid has 25 points and point t handles rows 2000 t … 2000 t + 1999: it loads that row block of
  the 50000 × 96 matrix H (the first layer's output) and all of the 96 × 96 matrix W2, recasts the block to its own
  shape (nothing moves), and multiplies into a zero accumulator. Entry (p, q) of the block written back is
  Σ_k H[2000 t + p, k] · W2[k, q], entry (2000 t + p, q) of H · W2, and the 25 blocks tile the rows.
-/
import proofs.«158188_j12584254177938_1_alg».proof.Proof.Gen.KernelIdeal.Frame
import proofs.«158188_j12584254177938_1_alg».proof.Proof.Model
import Idealize.ShloMosaic.Lib.KernelVsHost
import Idealize.ShloMosaic.Lib.StackMember
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- Both products are plain products of an M × 96 by a 96 × 96 matrix. -/
theorem dims_block : dot_S2000x96_S96x96_S2000x96_1_0_0_1_n_n = DotDims.plain 2000 96 96 := rfl
theorem dims_whole : Cert.ReferenceIdeal.dot_S50000x96_S96x96_S50000x96_1_0_0_1_n_n = DotDims.plain 50000 96 96 := rfl

/-- Entry (p, q) of what the body stores: the sum over k of the loaded blocks' entries (p, k) and (k, q). -/
theorem pay_apply (x : Vec Ideal S2000x96 .f32) (w : Vec Ideal S96x96 .f32) (p : Fin 2000) (q : Fin 96) :
    k1_pay1 (F := Ideal) x w (ix2 p q) = ∑ k : Fin 96, x (ix2 p k) * w (ix2 k q) := by
  show matmul dot_S2000x96_S96x96_S2000x96_1_0_0_1_n_n none
    (truncf (F := Ideal) .bf16 (shapeCast S2000x96 x shapeCasts_S2000x96_S2000x96) bitsLt_bf16_f32) (truncf (F := Ideal) .bf16 w bitsLt_bf16_f32)
    (constant S2000x96 .f32 0x00000000#32) (ix2 p q) = _
  rw [shapeCast_self, matmul_zero_eq_dotGeneral, dims_block]
  exact StackMember.dotGeneral_plain_apply none _ _ p q

/-- Entry (P, q) of the whole product. -/
theorem transform2_apply (X : (⟨Cert.ReferenceIdeal.S50000x96, .f32⟩ : BufTy).Contents (Elt Ideal))
    (W : (⟨Cert.ReferenceIdeal.S96x96, .f32⟩ : BufTy).Contents (Elt Ideal)) (P : Fin 50000) (q : Fin 96) :
    Cert.Model.transform2 (F := Ideal) X W (ix2 P q) = ∑ k : Fin 96, X (ix2 P k) * W (ix2 k q) := by
  unfold Cert.Model.transform2
  rw [dims_whole]
  exact StackMember.dotGeneral_plain_apply none X W P q

/-- ONE BLOCK AGAINST THE WHOLE PRODUCT: the loaded row block holding rows 2000 r … of H, the loaded weights W2, entry j
    of what the body stores is entry (2000 r + j₀, j₁) of H · W2. -/
theorem block_entry (X : (⟨Cert.ReferenceIdeal.S50000x96, .f32⟩ : BufTy).Contents (Elt Ideal))
    (W : (⟨Cert.ReferenceIdeal.S96x96, .f32⟩ : BufTy).Contents (Elt Ideal))
    (xb : Vec Ideal S2000x96 .f32) (wb : Vec Ideal S96x96 .f32) (r : Nat)
    (hx : ∀ (y : S2000x96.Idx) (k : Cert.ReferenceIdeal.S50000x96.Idx), (k 0).val = 2000 * r + (y 0).val → (k 1).val = (y 1).val → xb y = X k)
    (hw : ∀ y : S96x96.Idx, wb y = W y)
    (j : S2000x96.Idx) (i : Cert.ReferenceIdeal.S50000x96.Idx) (hi0 : (i 0).val = 2000 * r + (j 0).val) (hi1 : (i 1).val = (j 1).val) :
    k1_pay1 (F := Ideal) xb wb j = Cert.Model.transform2 (F := Ideal) X W i := by
  obtain ⟨p, q, rfl⟩ : ∃ (p : Fin 2000) (q : Fin 96), j = ix2 p q := ⟨j 0, j 1, eq_ix2 j⟩
  obtain ⟨P, q', rfl⟩ : ∃ (P : Fin 50000) (q' : Fin 96), i = ix2 P q' := ⟨i 0, i 1, eq_ix2 i⟩
  have hq : q' = q := Fin.ext hi1
  subst hq
  rw [pay_apply, transform2_apply]
  refine Finset.sum_congr rfl fun k _ => ?_
  rw [hx (ix2 p k) (ix2 P k) hi0 rfl, hw]

variable (V : (c : Dev nD) → (b : Ref sig .tc) → Buf (Elt Ideal) ((c : Thread nD τ).loc b))

/-- The printed index maps over the grid: H's row blocks and the output's move together, W2's one block stays. -/
theorem idx_facts : ∀ t : Fin cfg1.N, win1_0.index t (0 : Fin 2) = t.val
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point t is rows 2000 t … 2000 t + 1999 of the array the region finds. -/
theorem xblk_apply (c : Dev nD) (t : Fin cfg1.N) (y : S2000x96.Idx) (k : Cert.ReferenceIdeal.S50000x96.Idx)
    (hk0 : (k 0).val = 2000 * t.val + (y 0).val) (hk1 : (k 1).val = (y 1).val) :
    (iblk1 V c 0 t : Vec Ideal S2000x96 .f32) y = (V c main_v53 : Cert.ReferenceIdeal.S50000x96.Idx → Elt Ideal .f32) k := by
  obtain ⟨e0, e1, -, -, -, -⟩ := idx_facts t
  unfold iblk1
  rw [View.read_apply]
  show V c main_v53 _ = V c main_v53 _
  congr 1
  funext a
  apply Fin.ext
  match a with
  | ⟨0, _⟩ => show win1_0.index t 0 * 2000 + 1 * (y 0).val = (k 0).val; rw [e0, hk0]; omega
  | ⟨1, _⟩ => show win1_0.index t 1 * 96 + 1 * (y 1).val = (k 1).val; rw [e1, hk1]; omega

/-- The weight window's one block is the whole weight array. -/
theorem wblk_apply (c : Dev nD) (t : Fin cfg1.N) (y : S96x96.Idx) :
    (iblk1 V c 1 t : Vec Ideal S96x96 .f32) y = (V c main_arg4 : Cert.ReferenceIdeal.S96x96.Idx → Elt Ideal .f32) y := by
  obtain ⟨-, -, e2, e3, -, -⟩ := idx_facts t
  unfold iblk1
  rw [View.read_apply]
  show V c main_arg4 _ = V c main_arg4 _
  congr 1
  funext a
  apply Fin.ext
  match a with
  | ⟨0, _⟩ => show win1_1.index t 0 * 96 + 1 * (y 0).val = (y 0).val; rw [e2]; omega
  | ⟨1, _⟩ => show win1_1.index t 1 * 96 + 1 * (y 1).val = (y 1).val; rw [e3]; omega

/-- WHAT POINT t WRITES BACK is block t of the whole product of the arrays the region finds. -/
theorem flushed_eq (c : Dev nD) (t : Fin cfg1.N) :
    (dat1 V c).flushed 2 t = ((cfg1.win 2).blk t).view.read (Elt Ideal)
      (Cert.Model.transform2 (F := Ideal) (V c main_v53) (V c main_arg4)) := by
  show (cfg1.win 2).cut (grid1.coords t) ((dat1 V c).after 2 t) = _
  rw [after1_2]
  unfold out1_2
  rw [View.canon_unit_zero hz]
  simp only [View.ld_unit_zero (S := S2000x96) hz, View.ld_unit_zero (S := S96x96) hz]
  obtain ⟨-, -, -, -, e4, e5⟩ := idx_facts t
  funext j
  show k1_pay1 (F := Ideal) (iblk1 V c 0 t) (iblk1 V c 1 t) j
    = Cert.Model.transform2 (F := Ideal) (V c main_v53) (V c main_arg4) (((cfg1.win 2).blk t).view.emb j)
  refine block_entry (V c main_v53) (V c main_arg4) (iblk1 V c 0 t) (iblk1 V c 1 t) t.val
    (fun y k h0 h1 => xblk_apply V c t y k h0 h1) (fun y => wblk_apply V c t y) j _ ?_ ?_
  · show win1_2.index t 0 * 2000 + 1 * (j 0).val = 2000 * t.val + (j 0).val
    rw [e4]; omega
  · show win1_2.index t 1 * 96 + 1 * (j 1).val = (j 1).val
    rw [e5]; omega

/-- An index of the output array is in point t's block iff each coordinate is in the block's range on its axis. -/
theorem mem_blk (t : Fin cfg1.N) (i : Cert.ReferenceIdeal.S50000x96.Idx) :
    i ∈ ((cfg1.win 2).blk t).view.set ↔ ∀ a : Fin 2, win1_2.index t a * S2000x96.size a ≤ (i a).val ∧ (i a).val < win1_2.index t a * S2000x96.size a + S2000x96.size a := by
  show i ∈ ((View.whole main_v54).slice (win1_2.rect t)).set ↔ _
  rw [View.set_slice_whole, Rect.mem_set_unit]
  exact Iff.rfl

/-- Every row lies in the block of the point that is its number divided by 2000. -/
theorem cover (i : Cert.ReferenceIdeal.S50000x96.Idx) :
    ∃ t : Fin cfg1.N, (cfg1.win 2).flush t = true ∧ i ∈ ((cfg1.win 2).blk t).view.set := by
  have hi0 : (i 0).val < 50000 := (i 0).isLt
  have hi1 : (i 1).val < 96 := (i 1).isLt
  have hN : cfg1.N = 25 := N_1
  let t : Fin cfg1.N := ⟨(i 0).val / 2000, by rw [hN]; omega⟩
  obtain ⟨-, -, -, -, e4, e5⟩ := idx_facts t
  refine ⟨t, flush1_2 t, ?_⟩
  rw [mem_blk]
  intro a
  match a with
  | ⟨0, _⟩ => show win1_2.index t 0 * 2000 ≤ (i 0).val ∧ (i 0).val < win1_2.index t 0 * 2000 + 2000
              rw [e4]; show (i 0).val / 2000 * 2000 ≤ (i 0).val ∧ (i 0).val < (i 0).val / 2000 * 2000 + 2000; omega
  | ⟨1, _⟩ => show win1_2.index t 1 * 96 ≤ (i 1).val ∧ (i 1).val < win1_2.index t 1 * 96 + 96
              rw [e5]; omega

/-- THE OUTPUT ARRAY after the region: the whole product of the arrays the region finds. -/
theorem value (c : Dev nD) :
    (dat1 V c).arrAt 2 cfg1.N = Cert.Model.transform2 (F := Ideal) (V c main_v53) (V c main_arg4) :=
  (dat1 V c).arrAt_eq_of_cover 2 _ (fun t _ => flushed_eq V c t) cover

end Cert.KernelIdeal.Region1

end
-- ==== Proof.Region2.lean ====
/-
  Region 2: the head, block by block, is the whole head  max(H · Wm1 + bm1, 0) · Wm2 + bm2.

  The grid has 25 points; point t loads rows 2000 t … 2000 t + 1999 of the 50000 × 96 matrix H (the second layer's
  output) and, whole, the weights Wm1 (96 × 384), Wm2 (384 × 40) and the biases as one-row matrices. Its body forms
  H_t · Wm1 into a zero accumulator, lays the bias row along every row and adds it, takes the maximum with zero,
  multiplies by Wm2 into a zero accumulator and adds the second bias row. Every step acts on a row of H_t alone, so
  entry (p, q) of the block written back depends on row 2000 t + p of H only:
      Σ_k max( Σ_j H[2000 t + p, j] · Wm1[j, k] + bm1[k], 0 ) · Wm2[k, q] + bm2[q],
  which is entry (2000 t + p, q) of the whole head. The 25 blocks tile the 50000 rows.
-/
import proofs.«158188_j12584254177938_1_alg».proof.Proof.Gen.KernelIdeal.Frame
import proofs.«158188_j12584254177938_1_alg».proof.Proof.Model
import Idealize.ShloMosaic.Lib.KernelVsHost
import Idealize.ShloMosaic.Lib.StackMember
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- The four products, per block and whole, are plain products of an M × K by a K × N matrix. -/
theorem dims3_block : dot_S2000x96_S96x384_S2000x384_1_0_0_1_n_n = DotDims.plain 2000 96 384 := rfl
theorem dims4_block : dot_S2000x384_S384x40_S2000x40_1_0_0_1_n_n = DotDims.plain 2000 384 40 := rfl
theorem dims3_whole : Cert.ReferenceIdeal.dot_S50000x96_S96x384_S50000x384_1_0_0_1_n_n = DotDims.plain 50000 96 384 := rfl
theorem dims4_whole : Cert.ReferenceIdeal.dot_S50000x384_S384x40_S50000x40_1_0_0_1_n_n = DotDims.plain 50000 384 40 := rfl

/-- A one-row matrix laid down m rows by a vector broadcast, read at (r, t), is the row's entry t. -/
theorem rowBroadcast_apply {α : Type} {m n : Nat} (h : (⟨2, ![1, n]⟩ : Shape).Broadcasts ⟨2, ![m, n]⟩)
    (y : (⟨2, ![1, n]⟩ : Shape).Idx → α) (r : Fin m) (t : Fin n) :
    broadcastTo ⟨2, ![m, n]⟩ y h (ix2 r t) = y (ix2 (0 : Fin 1) t) := by
  refine broadcastTo_apply y h (ix2 r t) (ix2 (0 : Fin 1) t) ?_
  intro a
  match a with
  | ⟨0, _⟩ => rfl
  | ⟨1, _⟩ =>
    show t.val = if n = 1 then 0 else t.val
    split
    · have := t.isLt; omega
    · rfl

/-- One entry of the head, from one row of its input: Σ_k max(Σ_j row[j] · w1[j, k] + b1[k], 0) · w2[k, q] + b2[q]. -/
def entry (row : Fin 96 → EReal) (w1 : (⟨2, ![96, 384]⟩ : Shape).Idx → EReal) (b1 : (⟨2, ![1, 384]⟩ : Shape).Idx → EReal)
    (w2 : (⟨2, ![384, 40]⟩ : Shape).Idx → EReal) (b2 : (⟨2, ![1, 40]⟩ : Shape).Idx → EReal) (q : Fin 40) : EReal :=
  (∑ k : Fin 384, max ((∑ j : Fin 96, row j * w1 (ix2 j k)) + b1 (ix2 (0 : Fin 1) k))
      (Scalar.ofBits (F := Ideal) .f32 0x00000000#32) * w2 (ix2 k q)) + b2 (ix2 (0 : Fin 1) q)

/-- Entry (p, q) of what the body stores is the head's entry from row p of the loaded block. -/
theorem pay_apply (x : Vec Ideal S2000x96 .f32) (w1 : Vec Ideal S96x384 .f32) (b1 : Vec Ideal S1x384 .f32)
    (w2 : Vec Ideal S384x40 .f32) (b2 : Vec Ideal S1x40 .f32) (p : Fin 2000) (q : Fin 40) :
    k2_pay1 (F := Ideal) x w1 b1 w2 b2 (ix2 p q) = entry (fun j => x (ix2 p j)) w1 b1 w2 b2 q := by
  unfold k2_pay1
  rw [addf_apply, shapeCast_self, shapeCast_self, shapeCast_self, matmul_zero_eq_dotGeneral, dims4_block,
    StackMember.dotGeneral_plain_apply, rowBroadcast_apply]
  unfold entry
  refine congrArg (· + _) (Finset.sum_congr rfl fun k _ => ?_)
  rw [truncf_apply, maximumf_apply, addf_apply, broadcast_apply, matmul_zero_eq_dotGeneral, dims3_block,
    StackMember.dotGeneral_plain_apply, rowBroadcast_apply]
  rfl

/-- Entry (P, q) of the whole head is the head's entry from row P of its input. -/
theorem head_apply (X : (⟨Cert.ReferenceIdeal.S50000x96, .f32⟩ : BufTy).Contents (Elt Ideal))
    (W1 : (⟨Cert.ReferenceIdeal.S96x384, .f32⟩ : BufTy).Contents (Elt Ideal))
    (B1 : (⟨Cert.ReferenceIdeal.S1x384, .f32⟩ : BufTy).Contents (Elt Ideal))
    (W2 : (⟨Cert.ReferenceIdeal.S384x40, .f32⟩ : BufTy).Contents (Elt Ideal))
    (B2 : (⟨Cert.ReferenceIdeal.S1x40, .f32⟩ : BufTy).Contents (Elt Ideal)) (P : Fin 50000) (q : Fin 40) :
    Cert.Model.head (F := Ideal) X W1 B1 W2 B2 (ix2 P q) = entry (fun j => X (ix2 P j)) W1 B1 W2 B2 q := by
  unfold Cert.Model.head
  rw [addf_apply, dims4_whole, dims3_whole, StackMember.dotGeneral_plain_apply, broadcastInDim_oneRow_apply,
    broadcastInDim_constant]
  unfold entry
  refine congrArg (· + _) (Finset.sum_congr rfl fun k _ => ?_)
  rw [maximumf_apply, addf_apply, broadcast_apply, StackMember.dotGeneral_plain_apply, broadcastInDim_oneRow_apply]

/-- ONE BLOCK AGAINST THE WHOLE HEAD: the loaded row block holding rows 2000 r … of H and the other four loaded blocks
    the whole arrays, entry j of what the body stores is entry (2000 r + j₀, j₁) of the whole head. -/
theorem block_entry (X : (⟨Cert.ReferenceIdeal.S50000x96, .f32⟩ : BufTy).Contents (Elt Ideal))
    (W1 : (⟨Cert.ReferenceIdeal.S96x384, .f32⟩ : BufTy).Contents (Elt Ideal))
    (B1 : (⟨Cert.ReferenceIdeal.S1x384, .f32⟩ : BufTy).Contents (Elt Ideal))
    (W2 : (⟨Cert.ReferenceIdeal.S384x40, .f32⟩ : BufTy).Contents (Elt Ideal))
    (B2 : (⟨Cert.ReferenceIdeal.S1x40, .f32⟩ : BufTy).Contents (Elt Ideal))
    (xb : Vec Ideal S2000x96 .f32) (w1b : Vec Ideal S96x384 .f32) (b1b : Vec Ideal S1x384 .f32)
    (w2b : Vec Ideal S384x40 .f32) (b2b : Vec Ideal S1x40 .f32) (r : Nat)
    (hx : ∀ (y : S2000x96.Idx) (k : Cert.ReferenceIdeal.S50000x96.Idx), (k 0).val = 2000 * r + (y 0).val → (k 1).val = (y 1).val → xb y = X k)
    (h1 : ∀ y : S96x384.Idx, w1b y = W1 y) (h2 : ∀ y : S1x384.Idx, b1b y = B1 y)
    (h3 : ∀ y : S384x40.Idx, w2b y = W2 y) (h4 : ∀ y : S1x40.Idx, b2b y = B2 y)
    (j : S2000x40.Idx) (i : Cert.ReferenceIdeal.S50000x40.Idx) (hi0 : (i 0).val = 2000 * r + (j 0).val) (hi1 : (i 1).val = (j 1).val) :
    k2_pay1 (F := Ideal) xb w1b b1b w2b b2b j = Cert.Model.head (F := Ideal) X W1 B1 W2 B2 i := by
  obtain ⟨p, q, rfl⟩ : ∃ (p : Fin 2000) (q : Fin 40), j = ix2 p q := ⟨j 0, j 1, eq_ix2 j⟩
  obtain ⟨P, q', rfl⟩ : ∃ (P : Fin 50000) (q' : Fin 40), i = ix2 P q' := ⟨i 0, i 1, eq_ix2 i⟩
  have hq : q' = q := Fin.ext hi1
  subst hq
  have e1 : w1b = W1 := funext h1
  have e2 : b1b = B1 := funext h2
  have e3 : w2b = W2 := funext h3
  have e4 : b2b = B2 := funext h4
  subst e1 e2 e3 e4
  rw [pay_apply, head_apply]
  exact congrArg (fun f => entry f w1b b1b w2b b2b q') (funext fun j => hx (ix2 p j) (ix2 P j) hi0 rfl)

variable (V : (c : Dev nD) → (b : Ref sig .tc) → Buf (Elt Ideal) ((c : Thread nD τ).loc b))

/-- The printed index maps over the grid: H's row blocks and the output's move together, one per point; the four other
    windows' one block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row window's block at point t is rows 2000 t … 2000 t + 1999 of the array the region finds. -/
theorem xblk_apply (c : Dev nD) (t : Fin cfg2.N) (y : S2000x96.Idx) (k : Cert.ReferenceIdeal.S50000x96.Idx)
    (hk0 : (k 0).val = 2000 * t.val + (y 0).val) (hk1 : (k 1).val = (y 1).val) :
    (iblk2 V c 0 t : Vec Ideal S2000x96 .f32) y = (V c main_v80 : Cert.ReferenceIdeal.S50000x96.Idx → Elt Ideal .f32) k := by
  obtain ⟨e0, e1, -⟩ := idx_facts t
  unfold iblk2
  rw [View.read_apply]
  show V c main_v80 _ = V c main_v80 _
  congr 1
  funext a
  apply Fin.ext
  match a with
  | ⟨0, _⟩ => show win2_0.index t 0 * 2000 + 1 * (y 0).val = (k 0).val; rw [e0, hk0]; omega
  | ⟨1, _⟩ => show win2_0.index t 1 * 96 + 1 * (y 1).val = (k 1).val; rw [e1, hk1]; omega

/-- Each of the four other windows' one block is its whole array. -/
theorem w1blk_apply (c : Dev nD) (t : Fin cfg2.N) (y : S96x384.Idx) :
    (iblk2 V c 1 t : Vec Ideal S96x384 .f32) y = (V c main_arg6 : Cert.ReferenceIdeal.S96x384.Idx → Elt Ideal .f32) y := by
  obtain ⟨-, -, e0, e1, -⟩ := idx_facts t
  unfold iblk2
  rw [View.read_apply]
  show V c main_arg6 _ = V c main_arg6 _
  congr 1
  funext a
  apply Fin.ext
  match a with
  | ⟨0, _⟩ => show win2_1.index t 0 * 96 + 1 * (y 0).val = (y 0).val; rw [e0]; omega
  | ⟨1, _⟩ => show win2_1.index t 1 * 384 + 1 * (y 1).val = (y 1).val; rw [e1]; omega

theorem b1blk_apply (c : Dev nD) (t : Fin cfg2.N) (y : S1x384.Idx) :
    (iblk2 V c 2 t : Vec Ideal S1x384 .f32) y = (V c main_v81 : Cert.ReferenceIdeal.S1x384.Idx → Elt Ideal .f32) y := by
  obtain ⟨-, -, -, -, e0, e1, -⟩ := idx_facts t
  unfold iblk2
  rw [View.read_apply]
  show V c main_v81 _ = V c main_v81 _
  congr 1
  funext a
  apply Fin.ext
  match a with
  | ⟨0, _⟩ => show win2_2.index t 0 * 1 + 1 * (y 0).val = (y 0).val; rw [e0]; omega
  | ⟨1, _⟩ => show win2_2.index t 1 * 384 + 1 * (y 1).val = (y 1).val; rw [e1]; omega

theorem w2blk_apply (c : Dev nD) (t : Fin cfg2.N) (y : S384x40.Idx) :
    (iblk2 V c 3 t : Vec Ideal S384x40 .f32) y = (V c main_arg8 : Cert.ReferenceIdeal.S384x40.Idx → Elt Ideal .f32) y := by
  obtain ⟨-, -, -, -, -, -, e0, e1, -⟩ := idx_facts t
  unfold iblk2
  rw [View.read_apply]
  show V c main_arg8 _ = V c main_arg8 _
  congr 1
  funext a
  apply Fin.ext
  match a with
  | ⟨0, _⟩ => show win2_3.index t 0 * 384 + 1 * (y 0).val = (y 0).val; rw [e0]; omega
  | ⟨1, _⟩ => show win2_3.index t 1 * 40 + 1 * (y 1).val = (y 1).val; rw [e1]; omega

theorem b2blk_apply (c : Dev nD) (t : Fin cfg2.N) (y : S1x40.Idx) :
    (iblk2 V c 4 t : Vec Ideal S1x40 .f32) y = (V c main_v82 : Cert.ReferenceIdeal.S1x40.Idx → Elt Ideal .f32) y := by
  obtain ⟨-, -, -, -, -, -, -, -, e0, e1, -⟩ := idx_facts t
  unfold iblk2
  rw [View.read_apply]
  show V c main_v82 _ = V c main_v82 _
  congr 1
  funext a
  apply Fin.ext
  match a with
  | ⟨0, _⟩ => show win2_4.index t 0 * 1 + 1 * (y 0).val = (y 0).val; rw [e0]; omega
  | ⟨1, _⟩ => show win2_4.index t 1 * 40 + 1 * (y 1).val = (y 1).val; rw [e1]; omega

/-- WHAT POINT t WRITES BACK is block t of the whole head of the arrays the region finds. -/
theorem flushed_eq (c : Dev nD) (t : Fin cfg2.N) :
    (dat2 V c).flushed 5 t = ((cfg2.win 5).blk t).view.read (Elt Ideal)
      (Cert.Model.head (F := Ideal) (V c main_v80) (V c main_arg6) (V c main_v81) (V c main_arg8) (V c main_v82)) := by
  show (cfg2.win 5).cut (grid2.coords t) ((dat2 V c).after 5 t) = _
  rw [after2_5]
  unfold out2_5
  rw [View.canon_unit_zero hz]
  simp only [View.ld_unit_zero (S := S2000x96) hz, View.ld_unit_zero (S := S96x384) hz, View.ld_unit_zero (S := S1x384) hz,
    View.ld_unit_zero (S := S384x40) hz, View.ld_unit_zero (S := S1x40) hz]
  obtain ⟨-, -, -, -, -, -, -, -, -, -, e4, e5⟩ := idx_facts t
  funext j
  show k2_pay1 (F := Ideal) (iblk2 V c 0 t) (iblk2 V c 1 t) (iblk2 V c 2 t) (iblk2 V c 3 t) (iblk2 V c 4 t) j
    = Cert.Model.head (F := Ideal) (V c main_v80) (V c main_arg6) (V c main_v81) (V c main_arg8) (V c main_v82)
        (((cfg2.win 5).blk t).view.emb j)
  refine block_entry (V c main_v80) (V c main_arg6) (V c main_v81) (V c main_arg8) (V c main_v82)
    (iblk2 V c 0 t) (iblk2 V c 1 t) (iblk2 V c 2 t) (iblk2 V c 3 t) (iblk2 V c 4 t) t.val
    (fun y k h0 h1 => xblk_apply V c t y k h0 h1) (fun y => w1blk_apply V c t y) (fun y => b1blk_apply V c t y)
    (fun y => w2blk_apply V c t y) (fun y => b2blk_apply V c t y) j _ ?_ ?_
  · show win2_5.index t 0 * 2000 + 1 * (j 0).val = 2000 * t.val + (j 0).val
    rw [e4]; omega
  · show win2_5.index t 1 * 40 + 1 * (j 1).val = (j 1).val
    rw [e5]; omega

/-- An index of the output array is in point t's block iff each coordinate is in the block's range on its axis. -/
theorem mem_blk (t : Fin cfg2.N) (i : Cert.ReferenceIdeal.S50000x40.Idx) :
    i ∈ ((cfg2.win 5).blk t).view.set ↔ ∀ a : Fin 2, win2_5.index t a * S2000x40.size a ≤ (i a).val ∧ (i a).val < win2_5.index t a * S2000x40.size a + S2000x40.size a := by
  show i ∈ ((View.whole main_v83).slice (win2_5.rect t)).set ↔ _
  rw [View.set_slice_whole, Rect.mem_set_unit]
  exact Iff.rfl

/-- Every row lies in the block of the point that is its number divided by 2000. -/
theorem cover (i : Cert.ReferenceIdeal.S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 25 := N_2
  let t : Fin cfg2.N := ⟨(i 0).val / 2000, by rw [hN]; omega⟩
  obtain ⟨-, -, -, -, -, -, -, -, -, -, e4, e5⟩ := idx_facts t
  refine ⟨t, flush2_5 t, ?_⟩
  rw [mem_blk]
  intro a
  match a with
  | ⟨0, _⟩ => show win2_5.index t 0 * 2000 ≤ (i 0).val ∧ (i 0).val < win2_5.index t 0 * 2000 + 2000
              rw [e4]; show (i 0).val / 2000 * 2000 ≤ (i 0).val ∧ (i 0).val < (i 0).val / 2000 * 2000 + 2000; omega
  | ⟨1, _⟩ => show win2_5.index t 1 * 40 ≤ (i 1).val ∧ (i 1).val < win2_5.index t 1 * 40 + 40
              rw [e5]; omega

/-- THE OUTPUT ARRAY after the region: the whole head of the arrays the region finds. -/
theorem value (c : Dev nD) :
    (dat2 V c).arrAt 5 cfg2.N
      = Cert.Model.head (F := Ideal) (V c main_v80) (V c main_arg6) (V c main_v81) (V c main_arg8) (V c main_v82) :=
  (dat2 V c).arrAt_eq_of_cover 5 _ (fun t _ => flushed_eq V c t) cover

end Cert.KernelIdeal.Region2

end
-- ==== Proof.HostSide.lean ====
/-
  The kernel program's host stretches, read against the model's pieces.

  Between its three regions the kernel program runs the same host operations as the reference: before region 0 the
  edge endpoints, the degree vector and the two weights; between regions one aggregation and its logistic function;
  before the last region also the two biases recast as one-row matrices. Each lemma says what one stretch leaves in
  one buffer, as the model's named piece of what the stretch found; the rest say that a stretch leaves a buffer it does
  not write as it found it.
-/
import proofs.«158188_j12584254177938_1_alg».proof.Proof.Gen.KernelIdeal.Frame
import proofs.«158188_j12584254177938_1_alg».proof.Proof.Model

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before region 0: the graph's weights, from the endpoint table alone -/

theorem sources_at_entry0 (c : Dev nD) :
    W1 m ρ c (Proc.devRef .tc main_v1) = Cert.Model.sources (F := F) (m ((c : Thread nD τ).loc main_arg1)) := by
  show StableHlo.after hostOps0 (W0 m ρ c) (Proc.devRef .tc main_v1) = _
  after_results
  unfold Cert.Model.sources
  rfl

theorem targets_at_entry0 (c : Dev nD) :
    W1 m ρ c (Proc.devRef .tc main_v3) = Cert.Model.targets (F := F) (m ((c : Thread nD τ).loc main_arg1)) := by
  show StableHlo.after hostOps0 (W0 m ρ c) (Proc.devRef .tc main_v3) = _
  after_results
  unfold Cert.Model.targets
  rfl

theorem edgeWeight_at_entry0 (c : Dev nD) :
    W1 m ρ c (Proc.devRef .tc main_v25) = Cert.Model.edgeWeight (F := F) (m ((c : Thread nD τ).loc main_arg1)) := by
  show StableHlo.after hostOps0 (W0 m ρ c) (Proc.devRef .tc main_v25) = _
  after_results_simp
  unfold Cert.Model.edgeWeight Cert.Model.invSqrtDeg Cert.Model.wrapIndex Cert.Model.sources Cert.Model.targets
  rfl

theorem selfWeight_at_entry0 (c : Dev nD) :
    W1 m ρ c (Proc.devRef .tc main_v26) = Cert.Model.selfWeight (F := F) (m ((c : Thread nD τ).loc main_arg1)) := by
  show StableHlo.after hostOps0 (W0 m ρ c) (Proc.devRef .tc main_v26) = _
  after_results
  unfold Cert.Model.selfWeight Cert.Model.invSqrtDeg Cert.Model.targets
  rfl

/-! ## Between regions 0 and 1: the first aggregation -/

theorem layer_at_entry1 (c : Dev nD) :
    W3 m ρ c (Proc.devRef .tc main_v53)
      = Cert.Model.sigmoid (F := F) (Cert.Model.aggregate (F := F) (W2 m ρ c (Proc.devRef .tc main_v27)) (W2 m ρ c (Proc.devRef .tc main_v25))
          (W2 m ρ c (Proc.devRef .tc main_v26)) (W2 m ρ c (Proc.devRef .tc main_v1)) (W2 m ρ c (Proc.devRef .tc main_v3)) (W2 m ρ c (Proc.devRef .tc main_arg3))) := by
  show StableHlo.after hostOps1 (W2 m ρ c) (Proc.devRef .tc main_v53) = _
  after_results_simp
  unfold Cert.Model.sigmoid Cert.Model.aggregate Cert.Model.wrapIndex
  rfl

/-! ## Between regions 1 and 2: the second aggregation, and the head's biases as one-row matrices -/

theorem layer_at_entry2 (c : Dev nD) :
    W5 m ρ c (Proc.devRef .tc main_v80)
      = Cert.Model.sigmoid (F := F) (Cert.Model.aggregate (F := F) (W4 m ρ c (Proc.devRef .tc main_v54)) (W4 m ρ c (Proc.devRef .tc main_v25))
          (W4 m ρ c (Proc.devRef .tc main_v26)) (W4 m ρ c (Proc.devRef .tc main_v1)) (W4 m ρ c (Proc.devRef .tc main_v3)) (W4 m ρ c (Proc.devRef .tc main_arg5))) := by
  show StableHlo.after hostOps2 (W4 m ρ c) (Proc.devRef .tc main_v80) = _
  after_results_simp
  unfold Cert.Model.sigmoid Cert.Model.aggregate Cert.Model.wrapIndex
  rfl

theorem bias1_at_entry2 (c : Dev nD) :
    W5 m ρ c (Proc.devRef .tc main_v81) = shapeCast S1x384 (W4 m ρ c (Proc.devRef .tc main_arg7)) shapeCasts_S384_S1x384 := by
  show StableHlo.after hostOps2 (W4 m ρ c) (Proc.devRef .tc main_v81) = _
  after_results
  rfl

theorem bias2_at_entry2 (c : Dev nD) :
    W5 m ρ c (Proc.devRef .tc main_v82) = shapeCast S1x40 (W4 m ρ c (Proc.devRef .tc main_arg9)) shapeCasts_S40_S1x40 := by
  show StableHlo.after hostOps2 (W4 m ρ c) (Proc.devRef .tc main_v82) = _
  after_results
  rfl

end Cert.KernelIdeal.HostSide

end
-- ==== Proof.Kept.lean ====
/-
  What each boundary of the kernel program keeps.

  A host stretch leaves every buffer it does not write as it found it, and a region leaves every buffer that is not
  one of its arrays (and every input array) as it found it. So an argument array read at a later boundary is the
  launch contents, and the graph's weights and endpoints computed before region 0 are still there when the two
  aggregations read them.
-/
import proofs.«158188_j12584254177938_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A host stretch leaves a buffer as it found it when none of its operations writes it: every operation of the
    stretch writes its one result buffer, and each of those is another reference than the one read. -/
local macro "host_keeps " ops:ident r:ident : tactic =>
  `(tactic| (refine StableHlo.after_of_forall_not_mem (b := Proc.devRef .tc $r) _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem arg0_at1 (c : Dev nD) :
    W1 m ρ c (Proc.devRef .tc main_arg0) = m ((c : Thread nD τ).loc main_arg0) := by
  calc W1 m ρ c (Proc.devRef .tc main_arg0)
    _ = W0 m ρ c (Proc.devRef .tc main_arg0) := by host_keeps hostOps0 main_arg0
    _ = m ((c : Thread nD τ).loc main_arg0) := rfl

theorem arg2_at1 (c : Dev nD) :
    W1 m ρ c (Proc.devRef .tc main_arg2) = m ((c : Thread nD τ).loc main_arg2) := by
  calc W1 m ρ c (Proc.devRef .tc main_arg2)
    _ = W0 m ρ c (Proc.devRef .tc main_arg2) := by host_keeps hostOps0 main_arg2
    _ = m ((c : Thread nD τ).loc main_arg2) := rfl

theorem arg3_at2 (c : Dev nD) :
    W2 m ρ c (Proc.devRef .tc main_arg3) = m ((c : Thread nD τ).loc main_arg3) := by
  calc W2 m ρ c (Proc.devRef .tc main_arg3)
    _ = W1 m ρ c (Proc.devRef .tc main_arg3) := W2_of_ne m ρ c main_arg3 (by decide)
    _ = W0 m ρ c (Proc.devRef .tc main_arg3) := by host_keeps hostOps0 main_arg3
    _ = m ((c : Thread nD τ).loc main_arg3) := rfl

theorem arg4_at3 (c : Dev nD) :
    W3 m ρ c (Proc.devRef .tc main_arg4) = m ((c : Thread nD τ).loc main_arg4) := by
  calc W3 m ρ c (Proc.devRef .tc main_arg4)
    _ = W2 m ρ c (Proc.devRef .tc main_arg4) := by host_keeps hostOps1 main_arg4
    _ = W1 m ρ c (Proc.devRef .tc main_arg4) := W2_of_ne m ρ c main_arg4 (by decide)
    _ = W0 m ρ c (Proc.devRef .tc main_arg4) := by host_keeps hostOps0 main_arg4
    _ = m ((c : Thread nD τ).loc main_arg4) := rfl

theorem arg5_at4 (c : Dev nD) :
    W4 m ρ c (Proc.devRef .tc main_arg5) = m ((c : Thread nD τ).loc main_arg5) := by
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1 main_arg5
    _ = W1 m ρ c (Proc.devRef .tc main_arg5) := W2_of_ne m ρ c main_arg5 (by decide)
    _ = W0 m ρ c (Proc.devRef .tc main_arg5) := by host_keeps hostOps0 main_arg5
    _ = m ((c : Thread nD τ).loc main_arg5) := rfl

theorem arg7_at4 (c : Dev nD) :
    W4 m ρ c (Proc.devRef .tc main_arg7) = m ((c : Thread nD τ).loc main_arg7) := by
  calc W4 m ρ c (Proc.devRef .tc main_arg7)
    _ = W3 m ρ c (Proc.devRef .tc main_arg7) := W4_of_ne m ρ c main_arg7 (by decide)
    _ = W2 m ρ c (Proc.devRef .tc main_arg7) := by host_keeps hostOps1 main_arg7
    _ = W1 m ρ c (Proc.devRef .tc main_arg7) := W2_of_ne m ρ c main_arg7 (by decide)
    _ = W0 m ρ c (Proc.devRef .tc main_arg7) := by host_keeps hostOps0 main_arg7
    _ = m ((c : Thread nD τ).loc main_arg7) := rfl

theorem arg9_at4 (c : Dev nD) :
    W4 m ρ c (Proc.devRef .tc main_arg9) = m ((c : Thread nD τ).loc main_arg9) := by
  calc W4 m ρ c (Proc.devRef .tc main_arg9)
    _ = W3 m ρ c (Proc.devRef .tc main_arg9) := W4_of_ne m ρ c main_arg9 (by decide)
    _ = W2 m ρ c (Proc.devRef .tc main_arg9) := by host_keeps hostOps1 main_arg9
    _ = W1 m ρ c (Proc.devRef .tc main_arg9) := W2_of_ne m ρ c main_arg9 (by decide)
    _ = W0 m ρ c (Proc.devRef .tc main_arg9) := by host_keeps hostOps0 main_arg9
    _ = m ((c : Thread nD τ).loc main_arg9) := rfl

theorem arg6_at5 (c : Dev nD) :
    W5 m ρ c (Proc.devRef .tc main_arg6) = m ((c : Thread nD τ).loc main_arg6) := by
  calc W5 m ρ c (Proc.devRef .tc main_arg6)
    _ = W4 m ρ c (Proc.devRef .tc main_arg6) := by host_keeps hostOps2 main_arg6
    _ = W3 m ρ c (Proc.devRef .tc main_arg6) := W4_of_ne m ρ c main_arg6 (by decide)
    _ = W2 m ρ c (Proc.devRef .tc main_arg6) := by host_keeps hostOps1 main_arg6
    _ = W1 m ρ c (Proc.devRef .tc main_arg6) := W2_of_ne m ρ c main_arg6 (by decide)
    _ = W0 m ρ c (Proc.devRef .tc main_arg6) := by host_keeps hostOps0 main_arg6
    _ = m ((c : Thread nD τ).loc main_arg6) := rfl

theorem arg8_at5 (c : Dev nD) :
    W5 m ρ c (Proc.devRef .tc main_arg8) = m ((c : Thread nD τ).loc main_arg8) := by
  calc W5 m ρ c (Proc.devRef .tc main_arg8)
    _ = W4 m ρ c (Proc.devRef .tc main_arg8) := by host_keeps hostOps2 main_arg8
    _ = W3 m ρ c (Proc.devRef .tc main_arg8) := W4_of_ne m ρ c main_arg8 (by decide)
    _ = W2 m ρ c (Proc.devRef .tc main_arg8) := by host_keeps hostOps1 main_arg8
    _ = W1 m ρ c (Proc.devRef .tc main_arg8) := W2_of_ne m ρ c main_arg8 (by decide)
    _ = W0 m ρ c (Proc.devRef .tc main_arg8) := by host_keeps hostOps0 main_arg8
    _ = m ((c : Thread nD τ).loc main_arg8) := rfl

theorem v25_at2 (c : Dev nD) :
    W2 m ρ c (Proc.devRef .tc main_v25) = W1 m ρ c (Proc.devRef .tc main_v25) := by
  exact W2_of_ne m ρ c main_v25 (by decide)

theorem v26_at2 (c : Dev nD) :
    W2 m ρ c (Proc.devRef .tc main_v26) = W1 m ρ c (Proc.devRef .tc main_v26) := by
  exact W2_of_ne m ρ c main_v26 (by decide)

theorem v1_at2 (c : Dev nD) :
    W2 m ρ c (Proc.devRef .tc main_v1) = W1 m ρ c (Proc.devRef .tc main_v1) := by
  exact W2_of_ne m ρ c main_v1 (by decide)

theorem v3_at2 (c : Dev nD) :
    W2 m ρ c (Proc.devRef .tc main_v3) = W1 m ρ c (Proc.devRef .tc main_v3) := by
  exact W2_of_ne m ρ c main_v3 (by decide)

theorem v25_at4 (c : Dev nD) :
    W4 m ρ c (Proc.devRef .tc main_v25) = W1 m ρ c (Proc.devRef .tc main_v25) := by
  calc W4 m ρ c (Proc.devRef .tc main_v25)
    _ = W3 m ρ c (Proc.devRef .tc main_v25) := W4_of_ne m ρ c main_v25 (by decide)
    _ = W2 m ρ c (Proc.devRef .tc main_v25) := by host_keeps hostOps1 main_v25
    _ = W1 m ρ c (Proc.devRef .tc main_v25) := v25_at2 m ρ c

theorem v26_at4 (c : Dev nD) :
    W4 m ρ c (Proc.devRef .tc main_v26) = W1 m ρ c (Proc.devRef .tc main_v26) := by
  calc W4 m ρ c (Proc.devRef .tc main_v26)
    _ = W3 m ρ c (Proc.devRef .tc main_v26) := W4_of_ne m ρ c main_v26 (by decide)
    _ = W2 m ρ c (Proc.devRef .tc main_v26) := by host_keeps hostOps1 main_v26
    _ = W1 m ρ c (Proc.devRef .tc main_v26) := v26_at2 m ρ c

theorem v1_at4 (c : Dev nD) :
    W4 m ρ c (Proc.devRef .tc main_v1) = W1 m ρ c (Proc.devRef .tc main_v1) := by
  calc W4 m ρ c (Proc.devRef .tc main_v1)
    _ = W3 m ρ c (Proc.devRef .tc main_v1) := W4_of_ne m ρ c main_v1 (by decide)
    _ = W2 m ρ c (Proc.devRef .tc main_v1) := by host_keeps hostOps1 main_v1
    _ = W1 m ρ c (Proc.devRef .tc main_v1) := v1_at2 m ρ c

theorem v3_at4 (c : Dev nD) :
    W4 m ρ c (Proc.devRef .tc main_v3) = W1 m ρ c (Proc.devRef .tc main_v3) := by
  calc W4 m ρ c (Proc.devRef .tc main_v3)
    _ = W3 m ρ c (Proc.devRef .tc main_v3) := W4_of_ne m ρ c main_v3 (by decide)
    _ = W2 m ρ c (Proc.devRef .tc main_v3) := by host_keeps hostOps1 main_v3
    _ = W1 m ρ c (Proc.devRef .tc main_v3) := v3_at2 m ρ c

end Cert.KernelIdeal.Kept

end
-- ==== Proof.LibRowVector.lean ====
/-
  A vector as a one-row matrix, two spellings.
-/
import Idealize.ShloMosaic.Lib.Pipeline.Value
import Idealize.ShloMosaic.Lib.ValueIdx

namespace Cert.LibRowVector

open Idealize.ShloMosaic Idealize.ShloMosaic.ValueIdx

/-- A vector of n entries recast as a 1 × n matrix is the vector broadcast along axis 1 of a 1 × n matrix: entry (0, t)
    of either is entry t of the vector. (A kernel's host code reshapes a bias to one row; jnp broadcasts it.) -/
theorem shapeCast_row_eq_broadcastInDim {α : Type} {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val = 0 := by have := idx2_lt0 i; omega
  have e2 := shapeCast_apply x h i (ix1 (i 1 : Fin n)) (by
    rw [Shape.rowMajor_val_two, Shape.rowMajor_val_one]
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have := idx2_lt1 i; omega
      · rfl)
  exact e2.trans e3.symm

end Cert.LibRowVector
-- ==== Proof.KernelWhole.lean ====
/-
  The kernel program's result is the model of its ten arguments.

  Boundary by boundary: before region 0 the host code leaves the graph's weights and endpoints; region 0 leaves X · W1;
  the host code between regions aggregates it over the graph and applies the logistic function, which is the model's
  first layer; region 1 leaves that times W2; the host code aggregates again, the second layer, and recasts the head's
  biases as one-row matrices; region 2 leaves the head of all that. Each step reads only buffers that nothing in between
  has written, so each is the model's piece of the launch contents. The bias rows are the one place the two programs
  spell a value differently (a recast against a broadcast along axis 1): the same one-row matrix.
-/
import proofs.«158188_j12584254177938_1_alg».proof.Proof.Region0
import proofs.«158188_j12584254177938_1_alg».proof.Proof.Region1
import proofs.«158188_j12584254177938_1_alg».proof.Proof.Region2
import proofs.«158188_j12584254177938_1_alg».proof.Proof.HostSide
import proofs.«158188_j12584254177938_1_alg».proof.Proof.Kept
import proofs.«158188_j12584254177938_1_alg».proof.Proof.LibRowVector

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After region 0: the first dense transform of the launch contents. -/
theorem after_region0 (c : Dev nD) :
    W2 m ρ c (Proc.devRef .tc main_v27) = Cert.Model.transform1 (F := Ideal) (m ((c : Thread nD τ).loc main_arg0)) (m ((c : Thread nD τ).loc main_arg2)) := by
  refine (W2_arr m ρ c 2).trans ?_
  rw [Region0.value (V1 m ρ) c]
  show Cert.Model.transform1 (F := Ideal) (W1 m ρ c (Proc.devRef .tc main_arg0)) (W1 m ρ c (Proc.devRef .tc main_arg2)) = _
  rw [Kept.arg0_at1, Kept.arg2_at1]

/-- At region 1's entry: the model's first layer. -/
theorem at_entry1 (c : Dev nD) :
    W3 m ρ c (Proc.devRef .tc main_v53)
      = Cert.Model.layer (F := Ideal) (Cert.Model.transform1 (F := Ideal) (m ((c : Thread nD τ).loc main_arg0)) (m ((c : Thread nD τ).loc main_arg2)))
          (m ((c : Thread nD τ).loc main_arg1)) (m ((c : Thread nD τ).loc main_arg3)) := by
  rw [HostSide.layer_at_entry1, after_region0, Kept.v25_at2, Kept.v26_at2, Kept.v1_at2, Kept.v3_at2, Kept.arg3_at2,
    HostSide.edgeWeight_at_entry0, HostSide.selfWeight_at_entry0, HostSide.sources_at_entry0, HostSide.targets_at_entry0]
  rfl

/-- After region 1: the second dense transform of the first layer. -/
theorem after_region1 (c : Dev nD) :
    W4 m ρ c (Proc.devRef .tc main_v54)
      = Cert.Model.transform2 (F := Ideal)
          (Cert.Model.layer (F := Ideal) (Cert.Model.transform1 (F := Ideal) (m ((c : Thread nD τ).loc main_arg0)) (m ((c : Thread nD τ).loc main_arg2)))
            (m ((c : Thread nD τ).loc main_arg1)) (m ((c : Thread nD τ).loc main_arg3))) (m ((c : Thread nD τ).loc main_arg4)) := by
  refine (W4_arr m ρ c 2).trans ?_
  rw [Region1.value (V3 m ρ) c]
  show Cert.Model.transform2 (F := Ideal) (W3 m ρ c (Proc.devRef .tc main_v53)) (W3 m ρ c (Proc.devRef .tc main_arg4)) = _
  rw [at_entry1, Kept.arg4_at3]

/-- At region 2's entry: the model's second layer. -/
theorem at_entry2 (c : Dev nD) :
    W5 m ρ c (Proc.devRef .tc main_v80)
      = Cert.Model.layer (F := Ideal)
          (Cert.Model.transform2 (F := Ideal)
            (Cert.Model.layer (F := Ideal) (Cert.Model.transform1 (F := Ideal) (m ((c : Thread nD τ).loc main_arg0)) (m ((c : Thread nD τ).loc main_arg2)))
              (m ((c : Thread nD τ).loc main_arg1)) (m ((c : Thread nD τ).loc main_arg3))) (m ((c : Thread nD τ).loc main_arg4)))
          (m ((c : Thread nD τ).loc main_arg1)) (m ((c : Thread nD τ).loc main_arg5)) := by
  rw [HostSide.layer_at_entry2, after_region1, Kept.v25_at4, Kept.v26_at4, Kept.v1_at4, Kept.v3_at4, Kept.arg5_at4,
    HostSide.edgeWeight_at_entry0, HostSide.selfWeight_at_entry0, HostSide.sources_at_entry0, HostSide.targets_at_entry0]
  rfl

/-- THE RESULT ARRAY after the run: the model of the ten arguments' launch contents. -/
theorem result_eq_model (c : Dev nD) :
    W6 m ρ c (Proc.devRef .tc main_v83)
      = Cert.Model.model (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  rw [Region2.value (V5 m ρ) c]
  show Cert.Model.head (F := Ideal) (W5 m ρ c (Proc.devRef .tc main_v80)) (W5 m ρ c (Proc.devRef .tc main_arg6)) (W5 m ρ c (Proc.devRef .tc main_v81))
    (W5 m ρ c (Proc.devRef .tc main_arg8)) (W5 m ρ c (Proc.devRef .tc main_v82)) = _
  rw [at_entry2, Kept.arg6_at5, Kept.arg8_at5, HostSide.bias1_at_entry2, HostSide.bias2_at_entry2, Kept.arg7_at4, Kept.arg9_at4]
  unfold Cert.Model.model
  rw [Cert.LibRowVector.shapeCast_row_eq_broadcastInDim (n := 384) _ _ Cert.ReferenceIdeal.Gen.bcast_S384_S1x384_1,
    Cert.LibRowVector.shapeCast_row_eq_broadcastInDim (n := 40) _ _ Cert.ReferenceIdeal.Gen.bcast_S40_S1x40_1]

end Cert.KernelIdeal.Whole

end
-- ==== Proof.RefSide.lean ====
/-
  The reference's result is the model of its ten arguments.

  The reference program is straight-line host code; its run ends with the result at one composed term of the
  argument arrays. That term is, operation for operation, the model's definition with its named pieces opened:
  the degree vector (computed once per layer by the reference, the same term both times), the edge and self
  weights, the two aggregations with their logistic functions, and the head.
-/
import proofs.«158188_j12584254177938_1_alg».proof.Proof.Gen.ReferenceIdeal.Run
import proofs.«158188_j12584254177938_1_alg».proof.Proof.Model

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The run's result term is the model of the arguments' launch contents. -/
theorem result_eq_model (m : (ℓ : Loc nD τ sig) → Buf (Elt F) ℓ) (c : Dev nD) :
    Cert.ReferenceIdeal.Value.res_out0 (F := F) m c
      = Cert.Model.model (F := F)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_out0 Cert.ReferenceIdeal.Value.res_main_v112
  unfold Cert.Model.model Cert.Model.head Cert.Model.layer Cert.Model.transform1 Cert.Model.transform2
    Cert.Model.sigmoid Cert.Model.aggregate Cert.Model.edgeWeight Cert.Model.selfWeight Cert.Model.invSqrtDeg
    Cert.Model.wrapIndex Cert.Model.sources Cert.Model.targets
  rfl

end Cert.RefSide

end
-- ==== Proof.lean ====
/-
  A two-layer graph convolution with a small head, computed two ways, is one function of its ten arguments.

  THE COMPUTATION. 50000 nodes with 512 features each, 800000 directed edges given by their endpoints. With
  deg(v) = 1 + #{edges into v} and s = deg^(-1/2), a layer sends a node matrix h to
      sigmoid( Σ_{edges (u → v)} s(u) s(v) h[u] + s(v)² h[v] + b ),
  applied to X · W1 and then to (the result) · W2; the head is max(· Wm1 + bm1, 0) · Wm2 + bm2.

  THE TWO PROGRAMS. The reference is straight-line host code. The kernel program does the three dense stages in
  three row-tiled kernels (25 blocks of 2000 rows each: the two transforms, and the whole head fused) and everything
  that follows the graph (the degree count, the gathers, the scatter-adds, the logistic function) in host code
  between them, with the very operations the reference uses; it computes the degree vector once where the reference
  computes it once per layer. On exact values a change of float format is the identity and a product accumulated
  into zero is the product, so each kernel's blocks are the blocks of the reference's dense stage, and they tile
  the rows.

  THE PROOF. Proof/Model.lean names the computation's pieces once. The reference's result term is the model of its
  arguments, by unfolding (Proof/RefSide.lean). The kernel program's run ends with its result array at what the last
  region's write-backs leave (Proof/KernelRun.lean); read back boundary by boundary that is the model of the launch
  contents (Proof/KernelWhole.lean, over the three regions' values Proof/Region0–2.lean, the host stretches
  Proof/HostSide.lean and what each boundary keeps Proof/Kept.lean). No law of real arithmetic is used beyond
  0 + x = x, so nothing here needs the inputs finite. The two frames of the kernel programs are their launch
  theorems; the reference's is its run with the result dropped; the idealization rewrote nothing.
-/
import proofs.«158188_j12584254177938_1_alg».proof.Defs
import proofs.«158188_j12584254177938_1_alg».proof.Proof.Gen.Kernel
import proofs.«158188_j12584254177938_1_alg».proof.Proof.Gen.Kernel.Frame
import proofs.«158188_j12584254177938_1_alg».proof.Proof.Gen.KernelIdeal
import proofs.«158188_j12584254177938_1_alg».proof.Proof.Gen.KernelIdeal.Frame
import proofs.«158188_j12584254177938_1_alg».proof.Proof.Gen.ReferenceIdeal
import proofs.«158188_j12584254177938_1_alg».proof.Proof.Gen.ReferenceIdeal.Run
import proofs.«158188_j12584254177938_1_alg».proof.Proof.Gen.Pre_finite_inputs
import proofs.«158188_j12584254177938_1_alg».proof.Proof.KernelRun
import proofs.«158188_j12584254177938_1_alg».proof.Proof.KernelWhole
import proofs.«158188_j12584254177938_1_alg».proof.Proof.RefSide
import Idealize.ShloMosaic.Adequacy
import Idealize.ShloMosaic.Init

noncomputable section

namespace Cert.Proof

open Idealize.ShloMosaic Idealize.SL.Sem

/-- The word-level kernel program runs and keeps its arguments: its launch theorem over the three regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the model of the (agreeing) arguments in their result arrays. -/
theorem algebraic : Cert.algebraic_KernelIdeal_ReferenceIdeal := by
  intro m ρ m' ρ' _ hagree
  refine ⟨fun c => Cert.Model.model (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result_eq_model m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    refine (Cert.RefSide.result_eq_model (F := Ideal) m' c).trans ?_
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
